-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x1 .f32) (main_arg6 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S602112 : Shape := ⟨1, ![602112]⟩
abbrev S602112x1 : Shape := ⟨2, ![602112, 1]⟩
abbrev S602112x128 : Shape := ⟨2, ![602112, 128]⟩
abbrev S1x128 : Shape := ⟨2, ![1, 128]⟩
abbrev S1x1 : Shape := ⟨2, ![1, 1]⟩
abbrev S4096x128 : Shape := ⟨2, ![4096, 128]⟩
abbrev S4096x1 : Shape := ⟨2, ![4096, 1]⟩
abbrev S4096 : Shape := ⟨1, ![4096]⟩
abbrev S600000x1 : Shape := ⟨2, ![600000, 1]⟩
abbrev S50000 : Shape := ⟨1, ![50000]⟩
abbrev S600000x128 : Shape := ⟨2, ![600000, 128]⟩

abbrev nBuf : Space → Nat
  | .hbm => 63
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S_, .i32⟩
  | .hbm, ⟨8, _⟩ => ⟨S_, .i32⟩
  | .hbm, ⟨9, _⟩ => ⟨S602112, .i32⟩
  | .hbm, ⟨10, _⟩ => ⟨S_, .i32⟩
  | .hbm, ⟨11, _⟩ => ⟨S_, .i32⟩
  | .hbm, ⟨12, _⟩ => ⟨S602112, .i32⟩
  | .hbm, ⟨13, _⟩ => ⟨S_, .i32⟩
  | .hbm, ⟨14, _⟩ => ⟨S602112, .i32⟩
  | .hbm, ⟨15, _⟩ => ⟨S602112, .i1⟩
  | .hbm, ⟨16, _⟩ => ⟨S_, .i32⟩
  | .hbm, ⟨17, _⟩ => ⟨S602112, .i32⟩
  | .hbm, ⟨18, _⟩ => ⟨S602112, .i32⟩
  | .hbm, ⟨19, _⟩ => ⟨S602112, .i32⟩
  | .hbm, ⟨20, _⟩ => ⟨S602112x1, .i32⟩
  | .hbm, ⟨21, _⟩ => ⟨S602112x128, .f32⟩
  | .hbm, ⟨22, _⟩ => ⟨S_, .i32⟩
  | .hbm, ⟨23, _⟩ => ⟨S602112, .i32⟩
  | .hbm, ⟨24, _⟩ => ⟨S602112, .i1⟩
  | .hbm, ⟨25, _⟩ => ⟨S_, .i32⟩
  | .hbm, ⟨26, _⟩ => ⟨S602112, .i32⟩
  | .hbm, ⟨27, _⟩ => ⟨S602112, .i32⟩
  | .hbm, ⟨28, _⟩ => ⟨S602112, .i32⟩
  | .hbm, ⟨29, _⟩ => ⟨S602112x1, .i32⟩
  | .hbm, ⟨30, _⟩ => ⟨S602112x128, .f32⟩
  | .hbm, ⟨31, _⟩ => ⟨S602112x128, .f32⟩
  | .hbm, ⟨32, _⟩ => ⟨S1x128, .f32⟩
  | .hbm, ⟨33, _⟩ => ⟨S1x128, .f32⟩
  | .hbm, ⟨34, _⟩ => ⟨S1x1, .f32⟩
  | .hbm, ⟨35, _⟩ => ⟨S602112x1, .f32⟩
  | .hbm, ⟨36, _⟩ => ⟨S600000x1, .f32⟩
  | .hbm, ⟨37, _⟩ => ⟨S600000, .f32⟩
  | .hbm, ⟨38, _⟩ => ⟨S_, .f32⟩
  | .hbm, ⟨39, _⟩ => ⟨S50000, .f32⟩
  | .hbm, ⟨40, _⟩ => ⟨S600000x1, .i32⟩
  | .hbm, ⟨41, _⟩ => ⟨S50000, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000, .f32⟩
  | .hbm, ⟨51, _⟩ => ⟨S600000, .f32⟩
  | .hbm, ⟨52, _⟩ => ⟨S_, .i32⟩
  | .hbm, ⟨53, _⟩ => ⟨S_, .f32⟩
  | .hbm, ⟨54, _⟩ => ⟨S602112, .f32⟩
  | .hbm, ⟨55, _⟩ => ⟨S602112x1, .f32⟩
  | .hbm, ⟨56, _⟩ => ⟨S602112x128, .bf16⟩
  | .hbm, ⟨57, _⟩ => ⟨S600000x128, .bf16⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S4096x1, .f32⟩
  | .local _ .vmem, ⟨7, _⟩ => ⟨S4096x1, .f32⟩
  | .local _ .vmem, ⟨8, _⟩ => ⟨S4096x128, .f32⟩
  | .local _ .vmem, ⟨9, _⟩ => ⟨S4096x128, .f32⟩
  | .local _ .vmem, ⟨10, _⟩ => ⟨S4096x1, .f32⟩
  | .local _ .vmem, ⟨11, _⟩ => ⟨S4096x1, .f32⟩
  | .local _ .vmem, ⟨12, _⟩ => ⟨S4096x128, .bf16⟩
  | .local _ .vmem, ⟨13, _⟩ => ⟨S4096x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_call2_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![147], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S600000_S602112_021120 : S600000.Pads (![0] : Fin 1 → Nat) ![2112] ![0] S602112
  h_S_ : 0 < S_.numel
  bcast_S_S602112 : S_.BroadcastsInDim S602112 (![] : Fin 0 → Fin S602112.rank)
  bcast_S602112_S602112x1_0 : S602112.BroadcastsInDim S602112x1 (![0] : Fin 1 → Fin S602112x1.rank)
  shapeCasts_S128_S1x128 : S128.ShapeCasts S1x128
  transposes_S128x1_S1x128_1_0 : S128x1.Transposes [1, 0] S1x128
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S602112x1_S600000x1_0_0 : S602112x1.Slices ![0, 0] S600000x1
  shapeCasts_S600000x1_S600000 : S600000x1.ShapeCasts S600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  shapeCasts_S602112_S602112x1 : S602112.ShapeCasts S602112x1
  shapeCasts_S4096x1_S4096x1 : S4096x1.ShapeCasts S4096x1
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  slices_S602112x128_S600000x128_0_0 : S602112x128.Slices ![0, 0] S600000x128
  bcast_S_S50000x128 : S_.BroadcastsInDim S50000x128 (![] : Fin 0 → Fin S50000x128.rank)
  gather_S50000x128_S602112x1_S602112x128_1_0_n_n_0_1_1128_wf : GatherDims.WF S50000x128 S602112x1 S602112x128 [1] [0] [] [0] [] 1 ![1, 128]
  dot_S4096x128_S128x128_S4096x128_1_0_0_1_n_n_wf : DotDims.WF S4096x128 S128x128 S4096x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S602112x1.size a
  hwx0_5 : ∀ i : grid0.Coords, EltTy.bits .f32 = 32 ∨ (Rect.block (s := S602112x1) S4096x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S602112x128.size a
  hwx1_0 : ∀ i : grid1.Coords, EltTy.bits .f32 = 32 ∨ (Rect.block (s := S602112x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S602112x1.size a
  hwx1_1 : ∀ i : grid1.Coords, EltTy.bits .f32 = 32 ∨ (Rect.block (s := S602112x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S602112x128.size a
  hwx1_2 : ∀ i : grid1.Coords, EltTy.bits .bf16 = 32 ∨ (Rect.block (s := S602112x128) S4096x128.size (cc1_transform_2 i) (hinb1_2 i)).WholeWords (EltTy.packing .bf16)

variable [Facts₀]

def gather_S50000x128_S602112x1_S602112x128_1_0_n_n_0_1_1128 : GatherDims S50000x128 S602112x1 S602112x128 where
  offsetDims := [1]
  collapsedSliceDims := [0]
  operandBatchingDims := []
  startIndicesBatchingDims := []
  startIndexMap := [0]
  indexVectorDim := 1
  sliceSizes := ![1, 128]
  wf := gather_S50000x128_S602112x1_S602112x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v16) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x1 : Shape := ⟨2, ![1, 1]⟩
abbrev S50000 : Shape := ⟨1, ![50000]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S600000x128, .f32⟩
  | .hbm, ⟨27, _⟩ => ⟨S1x128, .f32⟩
  | .hbm, ⟨28, _⟩ => ⟨S600000x128, .f32⟩
  | .hbm, ⟨29, _⟩ => ⟨S600000x128, .f32⟩
  | .hbm, ⟨30, _⟩ => ⟨S_, .f32⟩
  | .hbm, ⟨31, _⟩ => ⟨S600000x128, .f32⟩
  | .hbm, ⟨32, _⟩ => ⟨S600000x128, .f32⟩
  | .hbm, ⟨33, _⟩ => ⟨S600000x1, .f32⟩
  | .hbm, ⟨34, _⟩ => ⟨S1x1, .f32⟩
  | .hbm, ⟨35, _⟩ => ⟨S600000x1, .f32⟩
  | .hbm, ⟨36, _⟩ => ⟨S600000x1, .f32⟩
  | .hbm, ⟨37, _⟩ => ⟨S_, .f32⟩
  | .hbm, ⟨38, _⟩ => ⟨S600000x1, .f32⟩
  | .hbm, ⟨39, _⟩ => ⟨S600000x1, .f32⟩
  | .hbm, ⟨40, _⟩ => ⟨S600000, .f32⟩
  | .hbm, ⟨41, _⟩ => ⟨S600000, .f32⟩
  | .hbm, ⟨42, _⟩ => ⟨S600000, .f32⟩
  | .hbm, ⟨43, _⟩ => ⟨S_, .f32⟩
  | .hbm, ⟨44, _⟩ => ⟨S600000, .f32⟩
  | .hbm, ⟨45, _⟩ => ⟨S600000, .f32⟩
  | .hbm, ⟨46, _⟩ => ⟨S_, .f32⟩
  | .hbm, ⟨47, _⟩ => ⟨S600000, .f32⟩
  | .hbm, ⟨48, _⟩ => ⟨S600000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000, .f32⟩
  | .hbm, ⟨62, _⟩ => ⟨S600000, .f32⟩
  | .hbm, ⟨63, _⟩ => ⟨S600000x1, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  shapeCasts_S600000x1_S600000 : S600000x1.ShapeCasts S600000
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics of one edge of the graph, over the extended reals.

  For an edge with feature difference `row` (the source node's features minus the destination node's), the
  hidden layer is `hid k = max (∑ j, row j · W j k + b₁ k) 0`, the logit is `∑ k, hid k · w₂ k + b₂`, and the attention
  weight is the logistic function of the logit clipped below at zero.  Both programs compute exactly this number
  for every edge: one as a matrix product followed by a product with a row and a lane sum, the other as two
  matrix products; the sums are the same sums, term for term.
-/
import Idealize.ShloMosaic.PureOps.Ideal
import Idealize.ShloMosaic.Lib.ValueIdx

noncomputable section

namespace Cert.Spec

open Idealize.ShloMosaic

/-- Hidden unit `k` of an edge whose feature difference is `row`: the affine map, clipped below at zero. -/
def hid (row : Fin 128 → EReal) (W : Fin 128 → Fin 128 → EReal) (b1 : Fin 128 → EReal) (k : Fin 128) : EReal :=
  max ((∑ j : Fin 128, row j * W j k) + b1 k) 0

/-- The attention weight of an edge: the logistic function of the second affine map of the hidden layer, clipped
    below at zero. -/
def att (row : Fin 128 → EReal) (W : Fin 128 → Fin 128 → EReal) (b1 w2 : Fin 128 → EReal) (b2 : EReal) : EReal :=
  Ideal.logistic (max ((∑ k : Fin 128, hid row W b1 k * w2 k) + b2) 0)

end Cert.Spec

end
-- ==== Proof.Pay.lean ====
/-
  The two kernel bodies read at an index, over the extended reals.
-/
import proofs.«411210_j22625887715773_4_alg».proof.Proof.Gen.KernelIdeal.Skeleton
import proofs.«411210_j22625887715773_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

section Layout
variable {α : Type}

/-- A column `[a, 1]` broadcast along the lanes to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry array `[1, 1]` broadcast down to a column `[a, 1]` reads its one entry everywhere. -/
theorem broadcastTo_11_a1_apply {a : ℕ} (v : (⟨2, ![1, 1]⟩ : Shape).Idx → α)
    (h : (⟨2, ![1, 1]⟩ : Shape).Broadcasts ⟨2, ![a, 1]⟩) (p : Fin a) (c : Fin 1) :
    broadcastTo ⟨2, ![a, 1]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The first body's matrix product at an index

The product contracts axis 1 of the block with axis 0 of the weights; its output axes are the block's rows and the
weights' columns. The four lemmas below read the operand indices of an output index `i` and a contraction index `q`
one coordinate at a time. -/

theorem lhs_mm_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_mm_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_mm_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_mm_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into the zero accumulator, entry `(p, k)` of the product is `∑ j, A (p, j) · B (j, k)`. -/
theorem mm_apply (A : FVec Ideal S4096x128 .bf16) (B : FVec Ideal S128x128 .bf16) (p : Fin 4096) (k : Fin 128) :
    matmul dot_S4096x128_S128x128_S4096x128_1_0_0_1_n_n none A B (constant (F := Ideal) S4096x128 .f32 0x00000000#32) (ix2 p k)
      = ∑ j : Fin 128, A (ix2 p j) * B (ix2 j k) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun j _ => ?_
  have hj := ValueIdx.contrEquiv1_symm_val dot_S4096x128_S128x128_S4096x128_1_0_0_1_n_n 128 rfl rfl j
  have el : dot_S4096x128_S128x128_S4096x128_1_0_0_1_n_n.lhsIdx (ix2 p k) ((ValueIdx.contrEquiv1 dot_S4096x128_S128x128_S4096x128_1_0_0_1_n_n 128 rfl rfl).symm j) = ix2 p j := funext fun a => Fin.ext (by
    match a with
    | ⟨0, _⟩ => exact lhs_mm_0 _ _
    | ⟨1, _⟩ => exact (lhs_mm_1 _ _).trans hj)
  have er : dot_S4096x128_S128x128_S4096x128_1_0_0_1_n_n.rhsIdx (ix2 p k) ((ValueIdx.contrEquiv1 dot_S4096x128_S128x128_S4096x128_1_0_0_1_n_n 128 rfl rfl).symm j) = ix2 j k := funext fun a => Fin.ext (by
    match a with
    | ⟨0, _⟩ => exact (rhs_mm_0 _ _).trans hj
    | ⟨1, _⟩ => exact rhs_mm_1 _ _)
  rw [el, er]

/-! ## The first body, stage by stage -/

/-- Entry `(p, k)` of the clipped affine map of the block is hidden unit `k` of row `p`: the product's sum, the
    bias row added on the right, the maximum with zero. -/
theorem hid_apply (x0 : Vec Ideal S4096x128 .f32) (x1 : Vec Ideal S128x128 .f32) (x2 : Vec Ideal S1x128 .f32)
    (p : Fin 4096) (k : Fin 128) :
    maximumf
        (addf
          (matmul dot_S4096x128_S128x128_S4096x128_1_0_0_1_n_n none (truncf .bf16 x0 bitsLt_bf16_f32) (truncf .bf16 x1 bitsLt_bf16_f32)
            (constant (F := Ideal) S4096x128 .f32 0x00000000#32))
          (broadcastTo S4096x128 x2 broadcasts_S1x128_S4096x128))
        (broadcast S4096x128 (FloatOps.ofBits (F := Ideal) .f32 0x00000000#32)) (ix2 p k)
      = Cert.Spec.hid (fun j => x0 (ix2 p j)) (fun j k => x1 (ix2 j k)) (fun k => x2 (ix2 (0 : Fin 1) k)) k := by
  show max (matmul dot_S4096x128_S128x128_S4096x128_1_0_0_1_n_n none (truncf .bf16 x0 bitsLt_bf16_f32) (truncf .bf16 x1 bitsLt_bf16_f32)
        (constant (F := Ideal) S4096x128 .f32 0x00000000#32) (ix2 p k)
      + broadcastTo S4096x128 x2 broadcasts_S1x128_S4096x128 (ix2 p k)) (Ideal.ofBits .f32 0x00000000#32) = _
  rw [mm_apply, broadcastTo_1b_ab_apply, Ideal.ofBits_zero_f32]
  rfl

/-- Row `p` of the first body's one store is the attention weight of the edge whose feature difference is row `p` of
    the block. -/
theorem pay0_apply (x0 : Vec Ideal S4096x128 .f32) (x1 : Vec Ideal S128x128 .f32) (x2 x3 : Vec Ideal S1x128 .f32)
    (x4 : Vec Ideal S1x1 .f32) (p : Fin 4096) :
    k0_pay1 (F := Ideal) x0 x1 x2 x3 x4 (ix2 p (0 : Fin 1))
      = Cert.Spec.att (fun j => x0 (ix2 p j)) (fun j k => x1 (ix2 j k)) (fun k => x2 (ix2 (0 : Fin 1) k))
          (fun k => x3 (ix2 (0 : Fin 1) k)) (x4 (ix2 (0 : Fin 1) (0 : Fin 1))) := by
  unfold k0_pay1 Cert.Spec.att
  simp only [shapeCast_self]
  -- the pointwise tail: the bias entry added on the right, the maximum with zero, the logistic function
  show Ideal.logistic (max (shapeCast S4096x1 _ shapeCasts_S4096_S4096x1 (ix2 p (0 : Fin 1))
      + broadcastTo S4096x1 x4 broadcasts_S1x1_S4096x1 (ix2 p (0 : Fin 1))) (Ideal.ofBits .f32 0x00000000#32)) = _
  rw [shapeCast_a_a1_apply, broadcastTo_11_a1_apply, Ideal.ofBits_zero_f32]
  refine congrArg (fun s => Ideal.logistic (max (s + x4 (ix2 (0 : Fin 1) (0 : Fin 1))) 0)) ?_
  -- the lane sum of row `p`
  refine (Ideal.multiReduction_add_single _ _ reduces_S4096x128_S4096 _ _ (ix1 p)).trans ?_
  refine Finset.sum_congr rfl fun (k : Fin 128) _ => ?_
  have e : reduces_S4096x128_S4096.lift (ix1 p) k = ix2 p k := funext fun a => Fin.ext (by
    match a with
    | ⟨0, _⟩ => rfl
    | ⟨1, _⟩ => rfl)
  rw [e]
  -- one term: the hidden unit times the second layer's weight
  show _ * broadcastTo S4096x128 x3 broadcasts_S1x128_S4096x128 (ix2 p k) = _
  rw [broadcastTo_1b_ab_apply]
  exact congrArg (· * x3 (ix2 (0 : Fin 1) k)) (hid_apply x0 x1 x2 p k)

/-- Entry `(p, q)` of the second body's one store is the edge's weight times the source node's feature. -/
theorem pay1_apply (v0 : Vec Ideal S4096x1 .f32) (v2 : Vec Ideal S4096x128 .f32) (p : Fin 4096) (q : Fin 128) :
    k1_pay1 (F := Ideal) v0 v2 (ix2 p q) = v0 (ix2 p (0 : Fin 1)) * v2 (ix2 p q) := by
  unfold k1_pay1
  rw [shapeCast_self, shapeCast_self]
  show broadcastTo S4096x128 v0 broadcasts_S4096x1_S4096x128 (ix2 p q) * v2 (ix2 p q) = _
  rw [broadcastTo_a1_ab_apply]

end Cert.KernelIdeal.Pay

end
-- ==== Proof.Arr0.lean ====
/-
  The first launch's output array.

  The launch runs the edge network on 147 blocks of 4096 edges: point `t` reads rows `4096·t … 4096·t + 4095` of the
  array of feature differences, the whole weight matrix, the two one-row vectors and the one-entry bias, and writes
  rows `4096·t … 4096·t + 4095` of the one-column output.  The blocks tile the 602112 rows, so after the launch row
  `e` of the output holds the attention weight of the edge whose feature difference is row `e` of the input array:
  one function of the arrays, index by index.
-/
import proofs.«411210_j22625887715773_4_alg».proof.Proof.Gen.KernelIdeal.Frame
import proofs.«411210_j22625887715773_4_alg».proof.Proof.Pay
import Idealize.ShloMosaic.Lib.Pipeline.Value
import Idealize.ShloMosaic.Lib.ValueIdx

set_option maxRecDepth 16384

noncomputable section

namespace Cert.KernelIdeal.Arr0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `e` of the output: the attention weight of the edge whose feature difference is row `e` of `D`. -/
def attArr (D : S602112x128.Idx → Elt Ideal .f32) (W : S128x128.Idx → Elt Ideal .f32) (B1 W2 : S1x128.Idx → Elt Ideal .f32)
    (B2 : S1x1.Idx → Elt Ideal .f32) : S602112x1.Idx → Elt Ideal .f32 :=
  fun i => Cert.Spec.att (fun j => D (ix2 ⟨(i 0).val, (i 0).isLt⟩ j)) (fun j k => W (ix2 j k)) (fun k => B1 (ix2 (0 : Fin 1) k))
    (fun k => W2 (ix2 (0 : Fin 1) k)) (B2 (ix2 (0 : Fin 1) (0 : Fin 1)))

/-- The printed index maps over the grid: the blocked windows sit at block row `t`, the resident ones at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 147 := Nat.lt_of_lt_of_eq t.isLt (show cfg0.N = 147 from N_0)

/-- Entry `(p, j)` of point `t`'s block of the feature differences is entry `(4096·t + p, j)` of the array. -/
theorem blk0_apply (c : Dev nD) (t : Fin cfg0.N) (p : Fin 4096) (j : Fin 128) :
    (iblk0 V c 0 t : Vec Ideal S4096x128 .f32) (ix2 p j)
      = (V c main_v16 : Vec Ideal S602112x128 .f32) (ix2 ⟨t.val * 4096 + p.val, by have := t_lt t; omega⟩ j) := by
  obtain ⟨e0, e1, -⟩ := idx_facts t
  show (V c main_v16 : Vec Ideal S602112x128 .f32) (((cfg0.win 0).blk t).view.emb (ix2 p j)) = _
  refine congrArg (V c main_v16 : Vec Ideal S602112x128 .f32) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 128 + 1 * j.val = j.val; rw [e1]; omega

/-- The resident windows' blocks are their whole arrays. -/
theorem blk1_apply (c : Dev nD) (t : Fin cfg0.N) (y : S128x128.Idx) :
    (iblk0 V c 1 t : Vec Ideal S128x128 .f32) y = (V c main_arg3 : Vec Ideal S128x128 .f32) y := by
  obtain ⟨-, -, e0, e1, -⟩ := idx_facts t
  show (V c main_arg3 : Vec Ideal S128x128 .f32) (((cfg0.win 1).blk t).view.emb y) = _
  refine congrArg (V c main_arg3 : Vec Ideal S128x128 .f32) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem blk2_apply (c : Dev nD) (t : Fin cfg0.N) (y : S1x128.Idx) :
    (iblk0 V c 2 t : Vec Ideal S1x128 .f32) y = (V c main_v17 : Vec Ideal S1x128 .f32) y := by
  obtain ⟨-, -, -, -, e0, e1, -⟩ := idx_facts t
  show (V c main_v17 : Vec Ideal S1x128 .f32) (((cfg0.win 2).blk t).view.emb y) = _
  refine congrArg (V c main_v17 : Vec Ideal S1x128 .f32) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem blk3_apply (c : Dev nD) (t : Fin cfg0.N) (y : S1x128.Idx) :
    (iblk0 V c 3 t : Vec Ideal S1x128 .f32) y = (V c main_v18 : Vec Ideal S1x128 .f32) y := by
  obtain ⟨-, -, -, -, -, -, e0, e1, -⟩ := idx_facts t
  show (V c main_v18 : Vec Ideal S1x128 .f32) (((cfg0.win 3).blk t).view.emb y) = _
  refine congrArg (V c main_v18 : Vec Ideal S1x128 .f32) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk4_apply (c : Dev nD) (t : Fin cfg0.N) (y : S1x1.Idx) :
    (iblk0 V c 4 t : Vec Ideal S1x1 .f32) y = (V c main_v19 : Vec Ideal S1x1 .f32) y := by
  obtain ⟨-, -, -, -, -, -, -, -, e0, e1, -⟩ := idx_facts t
  show (V c main_v19 : Vec Ideal S1x1 .f32) (((cfg0.win 4).blk t).view.emb y) = _
  refine congrArg (V c main_v19 : Vec Ideal S1x1 .f32) (funext fun a => Fin.ext ?_)
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- WHAT POINT `t` WRITES BACK is block `t` of the attention column of the arrays as the launch finds them. -/
theorem flushed_eq (c : Dev nD) (t : Fin cfg0.N) :
    (dat0 V c).flushed 5 t = ((cfg0.win 5).blk t).view.read (Elt Ideal)
      (attArr (V c main_v16) (V c main_arg3) (V c main_v17) (V c main_v18) (V c main_v19)) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x128) hz, View.ld_unit_zero (S := S1x128) hz,
    View.ld_unit_zero (S := S1x1) hz]
  obtain ⟨-, -, -, -, -, -, -, -, -, -, e0, e1⟩ := idx_facts t
  funext y
  obtain ⟨p, q, rfl⟩ : ∃ (p : Fin 4096) (q : Fin 1), y = ix2 p q := ⟨y 0, y 1, eq_ix2 y⟩
  obtain rfl : q = 0 := Subsingleton.elim _ _
  refine (Cert.KernelIdeal.Pay.pay0_apply (iblk0 V c 0 t) (iblk0 V c 1 t) (iblk0 V c 2 t) (iblk0 V c 3 t) (iblk0 V c 4 t) p).trans ?_
  have h0 : (fun j : Fin 128 => (iblk0 V c 0 t : Vec Ideal S4096x128 .f32) (ix2 p j))
      = fun j => (V c main_v16 : Vec Ideal S602112x128 .f32) (ix2 ⟨t.val * 4096 + p.val, by have := t_lt t; omega⟩ j) :=
    funext fun j => blk0_apply V c t p j
  have h1 : (fun (j k : Fin 128) => (iblk0 V c 1 t : Vec Ideal S128x128 .f32) (ix2 j k))
      = fun j k => (V c main_arg3 : Vec Ideal S128x128 .f32) (ix2 j k) :=
    funext fun j => funext fun k => blk1_apply V c t (ix2 j k)
  have h2 : (fun k : Fin 128 => (iblk0 V c 2 t : Vec Ideal S1x128 .f32) (ix2 (0 : Fin 1) k))
      = fun k => (V c main_v17 : Vec Ideal S1x128 .f32) (ix2 (0 : Fin 1) k) :=
    funext fun k => blk2_apply V c t (ix2 (0 : Fin 1) k)
  have h3 : (fun k : Fin 128 => (iblk0 V c 3 t : Vec Ideal S1x128 .f32) (ix2 (0 : Fin 1) k))
      = fun k => (V c main_v18 : Vec Ideal S1x128 .f32) (ix2 (0 : Fin 1) k) :=
    funext fun k => blk3_apply V c t (ix2 (0 : Fin 1) k)
  have h4 : (iblk0 V c 4 t : Vec Ideal S1x1 .f32) (ix2 (0 : Fin 1) (0 : Fin 1))
      = (V c main_v19 : Vec Ideal S1x1 .f32) (ix2 (0 : Fin 1) (0 : Fin 1)) := blk4_apply V c t _
  refine (congr (congr (congr (congr (congrArg Cert.Spec.att h0) h1) h2) h3) h4).trans ?_
  show _ = attArr (V c main_v16) (V c main_arg3) (V c main_v17) (V c main_v18) (V c main_v19)
    (((cfg0.win 5).blk t).view.emb (ix2 p (0 : Fin 1)))
  unfold attArr
  have hrow : (⟨t.val * 4096 + p.val, by have := t_lt t; omega⟩ : Fin 602112)
      = ⟨((((cfg0.win 5).blk t).view.emb (ix2 p (0 : Fin 1))) 0).val, ((((cfg0.win 5).blk t).view.emb (ix2 p (0 : Fin 1))) 0).isLt⟩ :=
    Fin.ext (by show t.val * 4096 + p.val = win0_5.index t (0 : Fin 2) * 4096 + 1 * p.val; rw [e0]; omega)
  rw [hrow]

/-- An index of the array is in point `t`'s block iff each coordinate is in the block's range on its axis. -/
theorem mem_blk (t : Fin cfg0.N) (i : S602112x1.Idx) :
    i ∈ ((cfg0.win 5).blk t).view.set ↔ ∀ a : Fin 2, win0_5.index t a * S4096x1.size a ≤ (i a).val ∧ (i a).val < win0_5.index t a * S4096x1.size a + S4096x1.size a := by
  show i ∈ ((View.whole main_v20).slice (win0_5.rect t)).set ↔ _
  rw [View.set_slice_whole, Rect.mem_set_unit]
  exact Iff.rfl

/-- The 147 blocks of 4096 rows tile the 602112 rows: row `r` is in the block of point `r / 4096`. -/
theorem cover (i : S602112x1.Idx) : ∃ t : Fin cfg0.N, (cfg0.win 5).flush t = true ∧ i ∈ ((cfg0.win 5).blk t).view.set := by
  have hi0 : (i 0).val < 602112 := (i 0).isLt
  have hi1 : (i 1).val < 1 := (i 1).isLt
  have hN : cfg0.N = 147 := N_0
  let t : Fin cfg0.N := ⟨(i 0).val / 4096, by rw [hN]; omega⟩
  obtain ⟨-, -, -, -, -, -, -, -, -, -, e0, e1⟩ := idx_facts t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; rw [e0, ht]; omega
  | ⟨1, _⟩ => show win0_5.index t (1 : Fin 2) * 1 ≤ (i 1).val ∧ (i 1).val < win0_5.index t (1 : Fin 2) * 1 + 1; rw [e1]; omega

/-- THE ARRAY after the launch: the attention column of the arrays as the launch finds them. -/
theorem final (c : Dev nD) :
    (dat0 V c).arrAt 5 cfg0.N = attArr (V c main_v16) (V c main_arg3) (V c main_v17) (V c main_v18) (V c main_v19) :=
  (dat0 V c).arrAt_eq_of_cover 5 _ (fun t _ => flushed_eq V c t) cover

end Cert.KernelIdeal.Arr0

end
-- ==== Proof.Arr1.lean ====
/-
  The second launch's output array.

  Point `t` of the 147 reads rows `4096·t … 4096·t + 4095` of the gathered source features and of the one-column array
  of edge weights, and writes the same rows of the output: entry `(e, j)` is the weight of edge `e` times feature `j`
  of its source node.  The blocks tile the 602112 rows, so the output array is that product, index by index.
-/
import proofs.«411210_j22625887715773_4_alg».proof.Proof.Gen.KernelIdeal.Frame
import proofs.«411210_j22625887715773_4_alg».proof.Proof.Pay
import Idealize.ShloMosaic.Lib.Pipeline.Value
import Idealize.ShloMosaic.Lib.ValueIdx

set_option maxRecDepth 16384

noncomputable section

namespace Cert.KernelIdeal.Arr1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry `(e, j)` of the output: edge `e`'s weight times feature `j` of its source node. -/
def msgArr (H : S602112x128.Idx → Elt Ideal .f32) (Wt : S602112x1.Idx → Elt Ideal .f32) : S602112x128.Idx → Elt Ideal .bf16 :=
  fun i => Wt (ix2 ⟨(i 0).val, (i 0).isLt⟩ (0 : Fin 1)) * H i

/-- The printed index maps over the grid: every window sits at block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 147 := Nat.lt_of_lt_of_eq t.isLt (show cfg1.N = 147 from N_1)

/-- Entry `(p, q)` of point `t`'s block of the source features is entry `(4096·t + p, q)` of the array. -/
theorem blkH_apply (c : Dev nD) (t : Fin cfg1.N) (p : Fin 4096) (q : Fin 128) :
    (iblk1 V c 0 t : Vec Ideal S4096x128 .f32) (ix2 p q)
      = (V c main_v8 : Vec Ideal S602112x128 .f32) (ix2 ⟨t.val * 4096 + p.val, by have := t_lt t; omega⟩ q) := by
  obtain ⟨e0, e1, -⟩ := idx_facts t
  show (V c main_v8 : Vec Ideal S602112x128 .f32) (((cfg1.win 0).blk t).view.emb (ix2 p q)) = _
  refine congrArg (V c main_v8 : Vec Ideal S602112x128 .f32) (funext fun a => Fin.ext ?_)
  match a with
  | ⟨0, _⟩ => show win1_0.index t (0 : Fin 2) * 4096 + 1 * p.val = t.val * 4096 + p.val; rw [e0]; omega
  | ⟨1, _⟩ => show win1_0.index t (1 : Fin 2) * 128 + 1 * q.val = q.val; rw [e1]; omega

/-- Row `p` of point `t`'s block of the weights is row `4096·t + p` of the array. -/
theorem blkW_apply (c : Dev nD) (t : Fin cfg1.N) (p : Fin 4096) :
    (iblk1 V c 1 t : Vec Ideal S4096x1 .f32) (ix2 p (0 : Fin 1))
      = (V c main_v35 : Vec Ideal S602112x1 .f32) (ix2 ⟨t.val * 4096 + p.val, by have := t_lt t; omega⟩ (0 : Fin 1)) := by
  obtain ⟨-, -, e0, e1, -⟩ := idx_facts t
  show (V c main_v35 : Vec Ideal S602112x1 .f32) (((cfg1.win 1).blk t).view.emb (ix2 p (0 : Fin 1))) = _
  refine congrArg (V c main_v35 : Vec Ideal S602112x1 .f32) (funext fun a => Fin.ext ?_)
  match a with
  | ⟨0, _⟩ => show win1_1.index t (0 : Fin 2) * 4096 + 1 * p.val = t.val * 4096 + p.val; rw [e0]; omega
  | ⟨1, _⟩ => show win1_1.index t (1 : Fin 2) * 1 + 1 * 0 = 0; rw [e1]

/-- Where entry `(p, q)` of point `t`'s output block sits in the array. -/
theorem emb_out (t : Fin cfg1.N) (p : Fin 4096) (q : Fin 128) :
    ((cfg1.win 2).blk t).view.emb (ix2 p q) = (ix2 ⟨t.val * 4096 + p.val, by have := t_lt t; omega⟩ q : S602112x128.Idx) := by
  obtain ⟨-, -, -, -, e0, e1⟩ := idx_facts t
  refine funext fun a => Fin.ext ?_
  match a with
  | ⟨0, _⟩ => show win1_2.index t (0 : Fin 2) * 4096 + 1 * p.val = t.val * 4096 + p.val; rw [e0]; omega
  | ⟨1, _⟩ => show win1_2.index t (1 : Fin 2) * 128 + 1 * q.val = q.val; rw [e1]; omega

/-- A product of equal factors. -/
theorem mul_eq_of (x x' y y' : EReal) (hx : x = x') (hy : y = y') : x * y = x' * y' := by rw [hx, hy]

/-- WHAT POINT `t` WRITES BACK is block `t` of the product array of the arrays as the launch finds them. -/
theorem flushed_eq (c : Dev nD) (t : Fin cfg1.N) :
    (dat1 V c).flushed 2 t = ((cfg1.win 2).blk t).view.read (Elt Ideal) (msgArr (V c main_v8) (V c main_v35)) := by
  show (cfg1.win 2).cut (grid1.coords t) ((dat1 V c).after 2 t) = _
  rw [after1_2]
  unfold out1_2
  rw [View.canon_unit_zero hz]
  simp only [View.ld_unit_zero (S := S4096x128) hz, View.ld_unit_zero (S := S4096x1) hz]
  funext y
  obtain ⟨p, q, rfl⟩ : ∃ (p : Fin 4096) (q : Fin 128), y = ix2 p q := ⟨y 0, y 1, eq_ix2 y⟩
  refine (Cert.KernelIdeal.Pay.pay1_apply (iblk1 V c 1 t) (iblk1 V c 0 t) p q).trans ?_
  refine (mul_eq_of _ _ _ _ (blkW_apply V c t p) (blkH_apply V c t p q)).trans ?_
  show _ = msgArr (V c main_v8) (V c main_v35) (((cfg1.win 2).blk t).view.emb (ix2 p q))
  rw [emb_out t p q]
  rfl

/-- An index of the array is in point `t`'s block iff each coordinate is in the block's range on its axis. -/
theorem mem_blk (t : Fin cfg1.N) (i : S602112x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v36).slice (win1_2.rect t)).set ↔ _
  rw [View.set_slice_whole, Rect.mem_set_unit]
  exact Iff.rfl

/-- The 147 blocks of 4096 rows tile the 602112 rows. -/
theorem cover (i : S602112x128.Idx) : ∃ t : Fin cfg1.N, (cfg1.win 2).flush t = true ∧ i ∈ ((cfg1.win 2).blk t).view.set := by
  have hi0 : (i 0).val < 602112 := (i 0).isLt
  have hi1 : (i 1).val < 128 := (i 1).isLt
  have hN : cfg1.N = 147 := N_1
  let t : Fin cfg1.N := ⟨(i 0).val / 4096, by rw [hN]; omega⟩
  obtain ⟨-, -, -, -, e0, e1⟩ := idx_facts t
  have ht : t.val = (i 0).val / 4096 := rfl
  refine ⟨t, flush1_2 t, ?_⟩
  rw [mem_blk]
  intro a
  match a with
  | ⟨0, _⟩ => show win1_2.index t (0 : Fin 2) * 4096 ≤ (i 0).val ∧ (i 0).val < win1_2.index t (0 : Fin 2) * 4096 + 4096; rw [e0, ht]; omega
  | ⟨1, _⟩ => show win1_2.index t (1 : Fin 2) * 128 ≤ (i 1).val ∧ (i 1).val < win1_2.index t (1 : Fin 2) * 128 + 128; rw [e1]; omega

/-- THE ARRAY after the launch: the product array of the arrays as the launch finds them. -/
theorem final (c : Dev nD) : (dat1 V c).arrAt 2 cfg1.N = msgArr (V c main_v8) (V c main_v35) :=
  (dat1 V c).arrAt_eq_of_cover 2 _ (fun t _ => flushed_eq V c t) cover

end Cert.KernelIdeal.Arr1

end
-- ==== Proof.KernelHost.lean ====
/-
  The kernel program's host side, read back.

  Between the launches the program only moves and combines arrays: it pads the two index vectors to 602112 entries,
  wraps negative indices, gathers the source and destination rows of the feature table and subtracts them, and lays
  the three small parameters out as rows (before the first launch); cuts the attention column back to 600000 entries,
  sums it per source node, gathers each edge's sum, divides, and pads the quotient again (between the launches); cuts
  the product array back to 600000 rows and sums it per destination node (after the second launch).  Every buffer a
  launch or the last stretch reads is written here as one term of the program's arguments, and the result buffer's
  final contents as the term `kval`.
-/
import proofs.«411210_j22625887715773_4_alg».proof.Proof.Gen.KernelIdeal.Frame
import proofs.«411210_j22625887715773_4_alg».proof.Proof.Arr0
import proofs.«411210_j22625887715773_4_alg».proof.Proof.Arr1
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

/-- Running two lists of host operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The terms -/

/-- An index vector padded with zeros to 602112 entries. -/
def padI (s : IVec S600000 32) : IVec S602112 32 :=
  pad S602112 ![0] ![2112] ![0] s (constantI S_ 32 0#32) pads_S600000_S602112_021120 h_S_

/-- The padded index vector with negative entries wrapped by the table's 50000 rows. -/
def nrmP (s : IVec S600000 32) : IVec S602112 32 :=
  select (cmpi .slt (padI s) (broadcastInDim S602112 ![] bcast_S_S602112 (constantI S_ 32 0#32)))
    (addi (padI s) (broadcastInDim S602112 ![] bcast_S_S602112 (constantI S_ 32 50000#32))) (padI s)

/-- The rows of the feature table at the padded, wrapped indices. -/
def rowsP (h : FVec Ideal S50000x128 .f32) (s : IVec S600000 32) : FVec Ideal S602112x128 .f32 :=
  Host.gather gather_S50000x128_S602112x1_S602112x128_1_0_n_n_0_1_1128 h
    (broadcastInDim S602112x1 ![0] bcast_S602112_S602112x1_0 (nrmP s))

/-- The feature differences of the padded edge list. -/
def difP (h : FVec Ideal S50000x128 .f32) (s d : IVec S600000 32) : FVec Ideal S602112x128 .f32 :=
  subf (rowsP h s) (rowsP h d)

/-- The attention column cut back to the 600000 edges, as a vector. -/
def attOf (A : FVec Ideal S602112x1 .f32) : FVec Ideal S600000 .f32 :=
  shapeCast S600000 (extractStridedSlice S600000x1 ![0, 0] A slices_S602112x1_S600000x1_0_0) shapeCasts_S600000x1_S600000

/-- Each edge's attention weight divided by the sum of the weights of the edges with the same source node. -/
def wOf (att : FVec Ideal S600000 .f32) (s : IVec S600000 32) : FVec Ideal S600000 .f32 :=
  Host.divf att (Host.gather gather_S50000_S600000x1_S600000_n_0_n_n_0_1_1
    (Host.scatterAdd scatter_S50000_S600000x1_S600000_n_0_0_1
      (broadcastInDim S50000 ![] bcast_S_S50000 (constant S_ .f32 0x00000000#32))
      (broadcastInDim S600000x1 ![0] bcast_S600000_S600000x1_0 s) att)
    (broadcastInDim S600000x1 ![0] bcast_S600000_S600000x1_0
      (select (cmpi .slt s (broadcastInDim S600000 ![] bcast_S_S600000 (constantI S_ 32 0#32)))
        (addi s (broadcastInDim S600000 ![] bcast_S_S600000 (constantI S_ 32 50000#32))) s)))

/-- The normalised weights padded with zeros to 602112 entries, as a column. -/
def colW (w : FVec Ideal S600000 .f32) : FVec Ideal S602112x1 .f32 :=
  shapeCast S602112x1 (pad S602112 ![0] ![2112] ![0] w (sitofp (F := Ideal) .f32 (constantI S_ 32 0#32)) pads_S600000_S602112_021120 h_S_)
    shapeCasts_S602112_S602112x1

/-- The messages cut back to the 600000 edges and summed per destination node. -/
def outOf (M : FVec Ideal S602112x128 .bf16) (d : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (extf .f32 (extractStridedSlice S600000x128 ![0, 0] M slices_S602112x128_S600000x128_0_0) bitsLt_bf16_f32)

/-- The attention weights of the 600000 edges, as the kernel program computes them. -/
def attK (a0 : FVec Ideal S50000x128 .f32) (a1 a2 : IVec S600000 32) (a3 : FVec Ideal S128x128 .f32) (a4 : FVec Ideal S128 .f32)
    (a5 : FVec Ideal S128x1 .f32) (a6 : FVec Ideal S1 .f32) : FVec Ideal S600000 .f32 :=
  attOf (Cert.KernelIdeal.Arr0.attArr (difP a0 a1 a2) a3 (shapeCast S1x128 a4 shapeCasts_S128_S1x128)
    (transpose S1x128 [1, 0] a5 transposes_S128x1_S1x128_1_0) (shapeCast S1x1 a6 shapeCasts_S1_S1x1))

/-- The second launch's output array, as the kernel program computes it. -/
def msgArrK (a0 : FVec Ideal S50000x128 .f32) (a1 a2 : IVec S600000 32) (a3 : FVec Ideal S128x128 .f32) (a4 : FVec Ideal S128 .f32)
    (a5 : FVec Ideal S128x1 .f32) (a6 : FVec Ideal S1 .f32) : FVec Ideal S602112x128 .bf16 :=
  Cert.KernelIdeal.Arr1.msgArr (rowsP a0 a1) (colW (wOf (attK a0 a1 a2 a3 a4 a5 a6) a1))

/-- The kernel program's result as one term of its arguments. -/
def kval (a0 : FVec Ideal S50000x128 .f32) (a1 a2 : IVec S600000 32) (a3 : FVec Ideal S128x128 .f32) (a4 : FVec Ideal S128 .f32)
    (a5 : FVec Ideal S128x1 .f32) (a6 : FVec Ideal S1 .f32) : FVec Ideal S50000x128 .f32 :=
  outOf (msgArrK a0 a1 a2 a3 a4 a5 a6) a2

/-! ## The boundaries -/

variable (m : (ℓ : Loc nD τ sig) → Buf (Elt Ideal) ℓ) (ρ : Dev nD → PrngReg)

theorem W4_flat (c : Dev nD) :
    W4 m ρ c = after (hostOps0 ++ hostOps0_1 ++ hostOps0_2 ++ hostOps0_3) (W0 m ρ c) := by
  simp only [after_append]

theorem W9_flat (c : Dev nD) : W9 m ρ c = after (hostOps1 ++ hostOps1_1 ++ hostOps1_2) (W6 m ρ c) := by
  simp only [after_append]

section Before
variable (c : Dev nD)

/-! ### After the two paddings -/

theorem v0_4 : W4 m ρ c (Proc.devRef .tc main_v0) = padI (m ((c : Thread nD τ).loc main_arg1)) := by
  rw [W4_flat]
  simp only [hostOps0, hostOps0_1, hostOps0_2, hostOps0_3, List.cons_append, List.nil_append]
  after_results_simp <;> rfl

theorem v1_4 : W4 m ρ c (Proc.devRef .tc main_v1) = padI (m ((c : Thread nD τ).loc main_arg2)) := by
  rw [W4_flat]
  simp only [hostOps0, hostOps0_1, hostOps0_2, hostOps0_3, List.cons_append, List.nil_append]
  after_results_simp <;> rfl

theorem a0_4 : W4 m ρ c (Proc.devRef .tc main_arg0) = m ((c : Thread nD τ).loc main_arg0) := by
  rw [W4_flat]
  simp only [hostOps0, hostOps0_1, hostOps0_2, hostOps0_3, List.cons_append, List.nil_append]
  after_results_simp <;> rfl

theorem a1_4 : W4 m ρ c (Proc.devRef .tc main_arg1) = m ((c : Thread nD τ).loc main_arg1) := by
  rw [W4_flat]
  simp only [hostOps0, hostOps0_1, hostOps0_2, hostOps0_3, List.cons_append, List.nil_append]
  after_results_simp <;> rfl

theorem a2_4 : W4 m ρ c (Proc.devRef .tc main_arg2) = m ((c : Thread nD τ).loc main_arg2) := by
  rw [W4_flat]
  simp only [hostOps0, hostOps0_1, hostOps0_2, hostOps0_3, List.cons_append, List.nil_append]
  after_results_simp <;> rfl

theorem a3_4 : W4 m ρ c (Proc.devRef .tc main_arg3) = m ((c : Thread nD τ).loc main_arg3) := by
  rw [W4_flat]
  simp only [hostOps0, hostOps0_1, hostOps0_2, hostOps0_3, List.cons_append, List.nil_append]
  after_results_simp <;> rfl

theorem a4_4 : W4 m ρ c (Proc.devRef .tc main_arg4) = m ((c : Thread nD τ).loc main_arg4) := by
  rw [W4_flat]
  simp only [hostOps0, hostOps0_1, hostOps0_2, hostOps0_3, List.cons_append, List.nil_append]
  after_results_simp <;> rfl

theorem a5_4 : W4 m ρ c (Proc.devRef .tc main_arg5) = m ((c : Thread nD τ).loc main_arg5) := by
  rw [W4_flat]
  simp only [hostOps0, hostOps0_1, hostOps0_2, hostOps0_3, List.cons_append, List.nil_append]
  after_results_simp <;> rfl

theorem a6_4 : W4 m ρ c (Proc.devRef .tc main_arg6) = m ((c : Thread nD τ).loc main_arg6) := by
  rw [W4_flat]
  simp only [hostOps0, hostOps0_1, hostOps0_2, hostOps0_3, List.cons_append, List.nil_append]
  after_results_simp <;> rfl

/-! ### At the first launch's entry -/

theorem v8_5 : V5 m ρ c main_v8
    = rowsP (m ((c : Thread nD τ).loc main_arg0)) (m ((c : Thread nD τ).loc main_arg1)) := by
  show after hostOps0_4 (W4 m ρ c) (Proc.devRef .tc main_v8) = _
  generalize hW : W4 m ρ c = W
  simp only [hostOps0_4]
  after_results_simp
  rw [← hW, v0_4, a0_4]
  rfl

theorem v16_5 : V5 m ρ c main_v16
    = difP (m ((c : Thread nD τ).loc main_arg0)) (m ((c : Thread nD τ).loc main_arg1)) (m ((c : Thread nD τ).loc main_arg2)) := by
  show after hostOps0_4 (W4 m ρ c) (Proc.devRef .tc main_v16) = _
  generalize hW : W4 m ρ c = W
  simp only [hostOps0_4]
  after_results_simp
  rw [← hW, v0_4, v1_4, a0_4]
  rfl

theorem v17_5 : V5 m ρ c main_v17 = shapeCast S1x128 (m ((c : Thread nD τ).loc main_arg4)) shapeCasts_S128_S1x128 := by
  show after hostOps0_4 (W4 m ρ c) (Proc.devRef .tc main_v17) = _
  generalize hW : W4 m ρ c = W
  simp only [hostOps0_4]
  after_results_simp
  rw [← hW, a4_4]
  rfl

theorem v18_5 : V5 m ρ c main_v18 = transpose S1x128 [1, 0] (m ((c : Thread nD τ).loc main_arg5)) transposes_S128x1_S1x128_1_0 := by
  show after hostOps0_4 (W4 m ρ c) (Proc.devRef .tc main_v18) = _
  generalize hW : W4 m ρ c = W
  simp only [hostOps0_4]
  after_results_simp
  rw [← hW, a5_4]

theorem v19_5 : V5 m ρ c main_v19 = shapeCast S1x1 (m ((c : Thread nD τ).loc main_arg6)) shapeCasts_S1_S1x1 := by
  show after hostOps0_4 (W4 m ρ c) (Proc.devRef .tc main_v19) = _
  generalize hW : W4 m ρ c = W
  simp only [hostOps0_4]
  after_results_simp
  rw [← hW, a6_4]
  rfl

theorem a3_5 : V5 m ρ c main_arg3 = m ((c : Thread nD τ).loc main_arg3) := by
  show after hostOps0_4 (W4 m ρ c) (Proc.devRef .tc main_arg3) = _
  generalize hW : W4 m ρ c = W
  simp only [hostOps0_4]
  after_results_simp
  rw [← hW]
  exact a3_4 m ρ c

theorem a1_5 : W5 m ρ c (Proc.devRef .tc main_arg1) = m ((c : Thread nD τ).loc main_arg1) := by
  show after hostOps0_4 (W4 m ρ c) (Proc.devRef .tc main_arg1) = _
  generalize hW : W4 m ρ c = W
  simp only [hostOps0_4]
  after_results_simp
  rw [← hW]
  exact a1_4 m ρ c

theorem a2_5 : W5 m ρ c (Proc.devRef .tc main_arg2) = m ((c : Thread nD τ).loc main_arg2) := by
  show after hostOps0_4 (W4 m ρ c) (Proc.devRef .tc main_arg2) = _
  generalize hW : W4 m ρ c = W
  simp only [hostOps0_4]
  after_results_simp
  rw [← hW]
  exact a2_4 m ρ c

/-- The first launch's output array, in the arguments. -/
theorem v20_6 : W6 m ρ c (Proc.devRef .tc main_v20)
    = Cert.KernelIdeal.Arr0.attArr (difP (m ((c : Thread nD τ).loc main_arg0)) (m ((c : Thread nD τ).loc main_arg1)) (m ((c : Thread nD τ).loc main_arg2)))
        (m ((c : Thread nD τ).loc main_arg3)) (shapeCast S1x128 (m ((c : Thread nD τ).loc main_arg4)) shapeCasts_S128_S1x128)
        (transpose S1x128 [1, 0] (m ((c : Thread nD τ).loc main_arg5)) transposes_S128x1_S1x128_1_0)
        (shapeCast S1x1 (m ((c : Thread nD τ).loc main_arg6)) shapeCasts_S1_S1x1) := by
  refine (W6_arr m ρ c 5).trans ?_
  rw [Cert.KernelIdeal.Arr0.final (V5 m ρ) c, v16_5, a3_5, v17_5, v18_5, v19_5]

end Before

section Between
variable (c : Dev nD)

theorem v8_9 : V9 m ρ c main_v8
    = rowsP (m ((c : Thread nD τ).loc main_arg0)) (m ((c : Thread nD τ).loc main_arg1)) := by
  show W9 m ρ c (Proc.devRef .tc main_v8) = _
  rw [W9_flat]
  generalize hW : W6 m ρ c = W
  simp only [hostOps1, hostOps1_1, hostOps1_2, List.cons_append, List.nil_append]
  after_results_simp
  rw [← hW]
  exact (W6_of_ne m ρ c main_v8 (by decide)).trans (v8_5 m ρ c)

set_option maxHeartbeats 2000000 in
theorem v35_9 : V9 m ρ c main_v35
    = colW (wOf (attOf (W6 m ρ c (Proc.devRef .tc main_v20))) (m ((c : Thread nD τ).loc main_arg1))) := by
  show W9 m ρ c (Proc.devRef .tc main_v35) = _
  rw [W9_flat]
  generalize hW : W6 m ρ c = W
  simp only [hostOps1, hostOps1_1, hostOps1_2, List.cons_append, List.nil_append]
  after_results_simp
  rw [← hW]
  rw [show W6 m ρ c (Proc.devRef .tc main_arg1) = m ((c : Thread nD τ).loc main_arg1) from
    (W6_of_ne m ρ c main_arg1 (by decide)).trans (a1_5 m ρ c)]
  rfl

theorem a2_9 : W9 m ρ c (Proc.devRef .tc main_arg2) = m ((c : Thread nD τ).loc main_arg2) := by
  rw [W9_flat]
  generalize hW : W6 m ρ c = W
  simp only [hostOps1, hostOps1_1, hostOps1_2, List.cons_append, List.nil_append]
  after_results_simp
  rw [← hW]
  exact (W6_of_ne m ρ c main_arg2 (by decide)).trans (a2_5 m ρ c)

end Between

/-- THE RESULT BUFFER at the end of the program: `kval` of the arguments. -/
theorem v41_11 (c : Dev nD) : W11 m ρ c (Proc.devRef .tc main_v41)
    = kval (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h36 : W10 m ρ c (Proc.devRef .tc main_v36)
      = msgArrK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
    refine (W10_arr m ρ c 2).trans ?_
    rw [Cert.KernelIdeal.Arr1.final (V9 m ρ) c, v8_9, v35_9, v20_6]
    rfl
  have h2 : W10 m ρ c (Proc.devRef .tc main_arg2) = m ((c : Thread nD τ).loc main_arg2) :=
    (W10_of_ne m ρ c main_arg2 (by decide)).trans (a2_9 m ρ c)
  show after hostOps2 (W10 m ρ c) (Proc.devRef .tc main_v41) = _
  generalize hW : W10 m ρ c = W at h36 h2 ⊢
  simp only [hostOps2]
  after_results_simp
  rw [h36, h2]
  rfl

end Cert.KernelIdeal.KHost

end
-- ==== Proof.RefAtt.lean ====
/-
  The reference's attention weight of an edge, read at an index over the extended reals.

  The reference computes, for every edge, two matrix products with a clip at zero after each, and then the logistic
  function spelt as `1 / (1 + exp (−x))`.  At edge `e` this is the number `Cert.Spec.att` of row `e` of the feature
  differences: each matrix product is the sum over the contracted axis, and `1 / (1 + exp (−x))` is the logistic
  function by its definition.
-/
import proofs.«411210_j22625887715773_4_alg».proof.Proof.Gen.ReferenceIdeal.Read
import proofs.«411210_j22625887715773_4_alg».proof.Proof.Spec
import Idealize.ShloMosaic.PureOps.Ideal.Laws
import Idealize.ShloMosaic.Lib.ValueIdx
import Idealize.ShloMosaic.Lib.Pipeline.Value

noncomputable section

namespace Cert.ReferenceIdeal.RefAtt

open Idealize.ShloMosaic Idealize.ShloMosaic.ValueIdx Cert.ReferenceIdeal Cert.ReferenceIdeal.Gen Cert.ReferenceIdeal.Read

/-- The word `0x3F800000` denotes the number one. -/
theorem ofBits_one_f32 : Ideal.ofBits .f32 0x3F800000#32 = 1 := by
  simp [Ideal.ofBits, Ideal.ieee, -EReal.coe_mul]; norm_num

/-- Hidden unit `k` of edge `e` in the reference: the first matrix product's element is the sum over the contracted
    axis, the bias is read at `k`, and the clip is against the zero constant; this is `Spec.hid` of row `e`. -/
theorem hid_apply (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (e : Fin 600000) (k : Fin 128) :
    val_main_v19 (F := Ideal) x0 x1 x2 x3 x4 (ix2 e k)
      = Cert.Spec.hid (fun j => val_main_v14 (F := Ideal) x0 x1 x2 (ix2 e j)) (fun j k => x3 (ix2 j k)) (fun k => x4 (ix1 k)) k := by
  -- the indices the matrix product and the two broadcasts read, by coordinates
  have hl : ∀ j : Fin 128, lidx_main_v15 (ix2 e k) j = ix2 e j := fun j => funext fun a => Fin.ext (by
    match a with | ⟨0, _⟩ => rfl | ⟨1, _⟩ => rfl)
  have hr : ∀ j : Fin 128, ridx_main_v15 (ix2 e k) j = ix2 j k := fun j => funext fun a => Fin.ext (by
    match a with | ⟨0, _⟩ => rfl | ⟨1, _⟩ => rfl)
  have hb : idx_main_v16 (idx_main_v17 (ix2 e k)) = ix1 k := funext fun a => Fin.ext (by
    match a with | ⟨0, _⟩ => rfl)
  rw [val_main_v19_apply, val_main_v18_apply, val_main_v15_apply, val_main_v17_apply, val_main_v16_apply,
    val_main_call0_v0_apply, val_main_call0_cst_apply]
  generalize val_main_v14 (F := Ideal) x0 x1 x2 = D
  simp only [hl, hr, hb]
  -- the zero word denotes zero; what remains is `max (∑ j, row j · W j k + b₁ k) 0` on both sides
  rw [Ideal.ofBits_def, Ideal.ofBits_zero_f32]
  rfl

/-- Edge `e`'s attention weight in the reference is `Spec.att` of row `e` of the feature differences. -/
theorem att_apply (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x1, .f32⟩ : BufTy).Contents (Elt Ideal)) (x6 : (⟨S1, .f32⟩ : BufTy).Contents (Elt Ideal)) (e : Fin 600000) :
    val_main_v31 (F := Ideal) x0 x1 x2 x3 x4 x5 x6 (ix1 e)
      = Cert.Spec.att (fun j => val_main_v14 (F := Ideal) x0 x1 x2 (ix2 e j)) (fun j k => x3 (ix2 j k)) (fun k => x4 (ix1 k))
          (fun k => x5 (ix2 k (0 : Fin 1))) (x6 (ix1 (0 : Fin 1))) := by
  -- the indices the reshape, the second matrix product and the two broadcasts read, by coordinates
  have hl : ∀ k : Fin 128, lidx_main_v20 (idx_main_v25 (ix1 e)) k = ix2 e k := fun k => funext fun a => Fin.ext (by
    match a with | ⟨0, _⟩ => exact Nat.div_one _ | ⟨1, _⟩ => rfl)
  have hr : ∀ k : Fin 128, ridx_main_v20 (idx_main_v25 (ix1 e)) k = ix2 k (0 : Fin 1) := fun k => funext fun a => Fin.ext (by
    match a with | ⟨0, _⟩ => rfl | ⟨1, _⟩ => rfl)
  have hb : idx_main_v21 (idx_main_v22 (idx_main_v25 (ix1 e))) = ix1 (0 : Fin 1) := funext fun a => Fin.ext (by
    match a with | ⟨0, _⟩ => rfl)
  rw [val_main_v31_apply, val_main_v30_apply, val_main_cst_3_apply, val_main_v29_apply, val_main_v28_apply, val_main_cst_apply,
    val_main_v27_apply, val_main_v26_apply, val_main_v25_apply, val_main_v24_apply, val_main_v23_apply, val_main_v20_apply,
    val_main_v22_apply, val_main_v21_apply, val_main_call1_v0_apply, val_main_call1_cst_apply]
  -- under the sum, each hidden unit is `Spec.hid`
  simp only [hl, hr, hb, hid_apply]
  -- the two constant words denote one and zero; `1 / (1 + exp (−x))` is the logistic function by its definition
  rw [Ideal.ofBits_def, Ideal.ofBits_def, ofBits_one_f32, Ideal.ofBits_zero_f32]
  rfl

end Cert.ReferenceIdeal.RefAtt

end
-- ==== Proof.LibGatherRows.lean ====
/-
  A row gather read at an index.

  jnp's `table[idx]` over a rank-2 table `[N, D]` with a vector of `n` row numbers prints as a `stablehlo.gather` whose start
  indices are the `[n, 1]` column of row numbers: operand axis 0 is collapsed and start-indexed, axis 1 is the one
  offset axis (the whole row of `D` entries is taken), there are no batching axes, and the index vector sits on axis 1
  of the start indices.  Entry `(p, q)` of the result is entry `q` of the table's row whose number is the `p`-th start
  index, read as a signed integer and clamped into `[0, N − 1]`.
-/
import Idealize.ShloMosaic.PureOps.Vector
import Idealize.ShloMosaic.Lib.ValueIdx
import Idealize.ShloMosaic.Lib.Pipeline.Value

noncomputable section

namespace Cert.LibGatherRows

open Idealize.ShloMosaic Idealize.ShloMosaic.ValueIdx

/-- THE ROW GATHER AT `(p, q)`: the table at row `clamp (idx[p, 0])`, column `q`. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  -- the printed dimension numbers, axis by axis
  have hb : ∀ a : Fin 2, a ∉ d.operandBatchingDims := fun a => by rw [hob]; exact List.not_mem_nil
  have hc0 : (0 : Fin 2) ∈ d.collapsedSliceDims := by rw [hcoll]; exact List.mem_singleton.mpr rfl
  have hk0 : (0 : Fin 2) ∉ d.sKept := fun h => ((d.mem_sKept 0).1 h).1 hc0
  have hk1 : (1 : Fin 2) ∈ d.sKept := (d.mem_sKept 1).2 ⟨by rw [hcoll]; simp, hb 1⟩
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 hc0
  -- every entry of a one-element list is that element
  have sing : ∀ {β : Type} (l : List β) (b : β), l = [b] → ∀ (i : Nat) (hi : i < l.length), l[i] = b := by
    intro β l b h i hi
    subst h
    have hi0 : i = 0 := by simpa using hi
    subst hi0; rfl
  -- the result's batch axes: all but the offset axis 1, so axis 0 alone
  have hbd : d.batchDims = [0] := by
    show Shape.kept _ d.offsetDims = _
    rw [hoff]; rfl
  have hp : ∀ X : Fin 2, X = 0 → ((ix2 p q) X).val = p.val := by rintro _ rfl; rfl
  have hq : ∀ X : Fin 2, X = 1 → ((ix2 p q) X).val = q.val := by rintro _ rfl; rfl
  -- the start index of result row p is read at (p, 0)
  have hsi : d.siIdx (ix2 p q) ⟨List.idxOf (0 : Fin 2) d.startIndexMap, List.idxOf_lt_length_iff.2 hm0⟩
      = ix2 p (0 : Fin 1) := by
    funext b
    match b with
    | ⟨0, hb0⟩ =>
      unfold GatherDims.siIdx
      rw [dif_neg (by rw [hivd]; exact Nat.zero_ne_one)]
      unfold GatherDims.siCoord
      apply Fin.ext
      simp only [Fin.val_cast]
      exact hp _ (sing _ _ hbd _ _)
    | ⟨1, hb1⟩ =>
      unfold GatherDims.siIdx
      rw [dif_pos (by rw [hivd])]
      apply Fin.ext
      show List.idxOf (0 : Fin 2) d.startIndexMap = 0
      rw [hsim]; simp
  -- axis 0 (collapsed, start-indexed): the clamped start, no batching or offset coordinate
  have h0 : (d.operandIdx (ix2 p q) idx 0).val = min (idx (ix2 p (0 : Fin 1))).toInt.toNat (N - 1) := by
    show d.start (ix2 p q) idx 0 + d.batchCoord (ix2 p q) 0 + d.offCoord (ix2 p q) 0 = _
    rw [d.batchCoord_eq_zero _ _ (hb 0), d.offCoord_eq_zero _ _ hk0]
    simp only [Nat.add_zero]
    unfold GatherDims.start
    rw [dif_pos hm0, hsi]
    show min _ (N - d.sliceSizes 0) = _
    rw [hsl]
  -- axis 1 (the offset axis): start 0, no batching coordinate, the offset coordinate is the result's on axis 1
  have h1 : (d.operandIdx (ix2 p q) idx 1).val = q.val := by
    show d.start (ix2 p q) idx 1 + d.batchCoord (ix2 p q) 1 + d.offCoord (ix2 p q) 1 = _
    rw [d.batchCoord_eq_zero _ _ (hb 1)]
    unfold GatherDims.start GatherDims.offCoord
    rw [dif_neg hm1, dif_pos hk1]
    simp only [Nat.add_zero, Nat.zero_add]
    exact hq _ (sing _ _ hoff _ _)
  unfold Host.gather
  congr 1
  funext a
  match a with
  | ⟨0, _⟩ => exact Fin.ext h0
  | ⟨1, _⟩ => exact Fin.ext h1

/-- THE ROW GATHER WHOSE START INDICES ARE A VECTOR LAID OUT AS A COLUMN (jnp's `table[v]`): entry `(p, q)` is the table at
    row `clamp (v[p])`, column `q`. -/
theorem gather_col_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (hbc : (⟨1, ![n]⟩ : Shape).BroadcastsInDim ⟨2, ![n, 1]⟩ ![0])
    (x : (⟨2, ![N, D]⟩ : Shape).Idx → α) (v : IVec ⟨1, ![n]⟩ w) (p : Fin n) (q : Fin D) (hN : 0 < N) (hn : n ≠ 1) :
    Host.gather d x (broadcastInDim ⟨2, ![n, 1]⟩ ![0] hbc v) (ix2 p q)
      = x (ix2 ⟨min (v (ix1 p)).toInt.toNat (N - 1), by omega⟩ q) := by
  have hcol : broadcastInDim ⟨2, ![n, 1]⟩ ![0] hbc v (ix2 p (0 : Fin 1)) = v (ix1 p) :=
    broadcastInDim_apply ![0] hbc v (ix2 p (0 : Fin 1)) (ix1 p) (fun a => match a with
      | ⟨0, _⟩ => by show p.val = if n = 1 then 0 else p.val; rw [if_neg hn])
  rw [gather_rows_apply d hoff hcoll hob hsim hivd x _ p q hN]
  simp only [hcol]

end Cert.LibGatherRows

end
-- ==== Proof.Bridge.lean ====
/-
  The two programs compute one function.

  The kernel program works on the edge list padded to 602112 edges and cuts the padding off again; the reference works
  on the 600000 edges.  Read at an edge `e < 600000`, every padded array is the unpadded one: the padded index vector is
  the index vector there, so the gathered rows are the same rows, the feature difference is the same row, and the
  attention weight is the same number `Spec.att` of that row.  From equal attention vectors the per-source sums, the
  gathered sums and the quotients are equal as whole vectors (the same operations applied to equal operands), the
  message of edge `e` is the same product, and the final per-destination sums are the same sum.
-/
import proofs.«411210_j22625887715773_4_alg».proof.Proof.KernelHost
import proofs.«411210_j22625887715773_4_alg».proof.Proof.RefAtt
import proofs.«411210_j22625887715773_4_alg».proof.Proof.LibGatherRows
import proofs.«411210_j22625887715773_4_alg».proof.Proof.Gen.ReferenceIdeal.Read
import Idealize.ShloMosaic.Lib.KernelVsHost
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.Bridge

open Idealize.ShloMosaic Idealize.ShloMosaic.ValueIdx
open Cert.KernelIdeal.KHost Cert.LibGatherRows

/-- Edge `e` as a row of the padded arrays. -/
abbrev up (e : Fin 600000) : Fin 602112 := ⟨e.val, by have := e.isLt; omega⟩

/-! ## The index vectors -/

/-- Below 600000 the padded index vector is the index vector. -/
theorem padI_apply (s : IVec Cert.KernelIdeal.S600000 32) (e : Fin 600000) : padI s (ix1 (up e)) = s (ix1 e) := by
  unfold padI
  exact pad_apply_of_inside _ _ _ s _ _ _ (ix1 (up e)) (ix1 e) (fun a => match a with
    | ⟨0, _⟩ => by show e.val = 0 + e.val * (0 + 1); omega)

/-- An index vector with its negative entries wrapped by the table's 50000 rows, as the reference spells it. -/
def nrmR (s : IVec Cert.ReferenceIdeal.S600000 32) : IVec Cert.ReferenceIdeal.S600000 32 :=
  select (cmpi .slt s (broadcastInDim Cert.ReferenceIdeal.S600000 ![] Cert.ReferenceIdeal.Gen.bcast_S_S600000 (constantI Cert.ReferenceIdeal.S_ 32 0#32)))
    (addi s (broadcastInDim Cert.ReferenceIdeal.S600000 ![] Cert.ReferenceIdeal.Gen.bcast_S_S600000 (constantI Cert.ReferenceIdeal.S_ 32 50000#32))) s

/-- Below 600000 the padded, wrapped index vector is the wrapped index vector. -/
theorem nrmP_apply (s : IVec Cert.KernelIdeal.S600000 32) (e : Fin 600000) : nrmP s (ix1 (up e)) = nrmR s (ix1 e) := by
  unfold nrmP nrmR
  show Scalar.select (IntOp.cmpi .slt (padI s (ix1 (up e))) _) (IntOp.addi (padI s (ix1 (up e))) _) (padI s (ix1 (up e)))
    = Scalar.select (IntOp.cmpi .slt (s (ix1 e)) _) (IntOp.addi (s (ix1 e)) _) (s (ix1 e))
  rw [padI_apply s e]
  rfl

/-! ## The gathered rows -/

/-- The rows of the feature table at the wrapped indices, as the reference spells them. -/
def rowsR (h : FVec Ideal Cert.ReferenceIdeal.S50000x128 .f32) (s : IVec Cert.ReferenceIdeal.S600000 32) : FVec Ideal Cert.ReferenceIdeal.S600000x128 .f32 :=
  Host.gather Cert.ReferenceIdeal.gather_S50000x128_S600000x1_S600000x128_1_0_n_n_0_1_1128 h
    (broadcastInDim Cert.ReferenceIdeal.S600000x1 ![0] Cert.ReferenceIdeal.Gen.bcast_S600000_S600000x1_0 (nrmR s))

theorem v6_eq (x0 : FVec Ideal Cert.KernelIdeal.S50000x128 .f32) (x1 : IVec Cert.KernelIdeal.S600000 32) :
    Cert.ReferenceIdeal.Read.val_main_v6 (F := Ideal) x0 x1 = rowsR x0 x1 := rfl
theorem v13_eq (x0 : FVec Ideal Cert.KernelIdeal.S50000x128 .f32) (x2 : IVec Cert.KernelIdeal.S600000 32) :
    Cert.ReferenceIdeal.Read.val_main_v13 (F := Ideal) x0 x2 = rowsR x0 x2 := rfl
theorem v50_eq (x0 : FVec Ideal Cert.KernelIdeal.S50000x128 .f32) (x1 : IVec Cert.KernelIdeal.S600000 32) :
    Cert.ReferenceIdeal.Read.val_main_v50 (F := Ideal) x0 x1 = rowsR x0 x1 := rfl

/-- Row `e < 600000` of the padded gather is row `e` of the reference's gather. -/
theorem rows_eq (h : FVec Ideal Cert.KernelIdeal.S50000x128 .f32) (s : IVec Cert.KernelIdeal.S600000 32) (e : Fin 600000) (j : Fin 128) :
    rowsP h s (ix2 (up e) j) = rowsR h s (ix2 e j) := by
  unfold rowsP rowsR
  refine (gather_col_apply Cert.KernelIdeal.gather_S50000x128_S602112x1_S602112x128_1_0_n_n_0_1_1128 rfl rfl rfl rfl rfl _ h (nrmP s)
    (up e) j (by decide) (by decide)).trans ?_
  refine Eq.trans ?_ (gather_col_apply Cert.ReferenceIdeal.gather_S50000x128_S600000x1_S600000x128_1_0_n_n_0_1_1128 rfl rfl rfl rfl rfl _ h (nrmR s)
    e j (by decide) (by decide)).symm
  simp only [nrmP_apply s e]

/-- Row `e < 600000` of the padded feature differences is row `e` of the reference's. -/
theorem dif_eq (x0 : FVec Ideal Cert.KernelIdeal.S50000x128 .f32) (x1 x2 : IVec Cert.KernelIdeal.S600000 32) (e : Fin 600000) (j : Fin 128) :
    difP x0 x1 x2 (ix2 (up e) j) = Cert.ReferenceIdeal.Read.val_main_v14 (F := Ideal) x0 x1 x2 (ix2 e j) := by
  rw [Cert.ReferenceIdeal.Read.val_main_v14_apply, v6_eq, v13_eq]
  show FloatOps.subf (rowsP x0 x1 (ix2 (up e) j)) (rowsP x0 x2 (ix2 (up e) j)) = _
  rw [rows_eq, rows_eq]

/-! ## The attention weights -/

/-- The attention column cut back and cast to a vector reads, at edge `e`, the column's row `e`. -/
theorem attOf_apply (A : FVec Ideal Cert.KernelIdeal.S602112x1 .f32) (e : Fin 600000) : attOf A (ix1 e) = A (ix2 (up e) (0 : Fin 1)) := by
  unfold attOf
  refine (shapeCast_apply _ _ (ix1 e) (ix2 e (0 : Fin 1)) ?_).trans ?_
  · rw [Shape.rowMajor_val_two, Shape.rowMajor_val_one]; show e.val * 1 + 0 = e.val; omega
  · exact extractStridedSlice_apply _ A _ (ix2 e (0 : Fin 1)) (ix2 (up e) (0 : Fin 1)) (fun a => match a with
      | ⟨0, _⟩ => by show e.val = 0 + e.val; omega
      | ⟨1, _⟩ => by show 0 = 0 + 0; rfl)

/-- THE ATTENTION VECTORS of the two programs are equal. -/
theorem att_eq (x0 : FVec Ideal Cert.KernelIdeal.S50000x128 .f32) (x1 x2 : IVec Cert.KernelIdeal.S600000 32) (x3 : FVec Ideal Cert.KernelIdeal.S128x128 .f32)
    (x4 : FVec Ideal Cert.KernelIdeal.S128 .f32) (x5 : FVec Ideal Cert.KernelIdeal.S128x1 .f32) (x6 : FVec Ideal Cert.KernelIdeal.S1 .f32) :
    attK x0 x1 x2 x3 x4 x5 x6 = Cert.ReferenceIdeal.Read.val_main_v31 (F := Ideal) x0 x1 x2 x3 x4 x5 x6 := by
  funext i
  obtain ⟨e, rfl⟩ : ∃ e : Fin 600000, i = ix1 e := ⟨i 0, eq_ix1 i⟩
  rw [Cert.ReferenceIdeal.RefAtt.att_apply]
  unfold attK
  rw [attOf_apply]
  unfold Cert.KernelIdeal.Arr0.attArr
  refine congr (congr (congr (congr (congrArg Cert.Spec.att ?_) rfl) ?_) ?_) ?_
  · funext j; exact dif_eq x0 x1 x2 e j
  · funext k; exact shapeCast_a_1a_apply x4 _ 0 k
  · funext k; exact transpose_ix2_apply x5 _ 0 k
  · exact shapeCast_a_1a_apply x6 _ 0 0

/-- So the normalised weights are equal: the same operations on equal operands. -/
theorem w_eq (x0 : FVec Ideal Cert.KernelIdeal.S50000x128 .f32) (x1 x2 : IVec Cert.KernelIdeal.S600000 32) (x3 : FVec Ideal Cert.KernelIdeal.S128x128 .f32)
    (x4 : FVec Ideal Cert.KernelIdeal.S128 .f32) (x5 : FVec Ideal Cert.KernelIdeal.S128x1 .f32) (x6 : FVec Ideal Cert.KernelIdeal.S1 .f32) :
    wOf (attK x0 x1 x2 x3 x4 x5 x6) x1 = Cert.ReferenceIdeal.Read.val_main_v42 (F := Ideal) x0 x1 x2 x3 x4 x5 x6 := by
  rw [att_eq]
  rfl

/-! ## The messages -/

/-- The padded weight column reads, at row `e < 600000`, weight `e`. -/
theorem colW_apply (w : FVec Ideal Cert.KernelIdeal.S600000 .f32) (e : Fin 600000) : colW w (ix2 (up e) (0 : Fin 1)) = w (ix1 e) := by
  unfold colW
  refine (Cert.KernelIdeal.Pay.shapeCast_a_a1_apply _ _ (up e) 0).trans ?_
  exact pad_apply_of_inside _ _ _ w _ _ _ (ix1 (up e)) (ix1 e) (fun a => match a with
    | ⟨0, _⟩ => by show e.val = 0 + e.val * (0 + 1); omega)

/-- THE MESSAGES of the two programs are equal. -/
theorem msg_eq (x0 : FVec Ideal Cert.KernelIdeal.S50000x128 .f32) (x1 x2 : IVec Cert.KernelIdeal.S600000 32) (x3 : FVec Ideal Cert.KernelIdeal.S128x128 .f32)
    (x4 : FVec Ideal Cert.KernelIdeal.S128 .f32) (x5 : FVec Ideal Cert.KernelIdeal.S128x1 .f32) (x6 : FVec Ideal Cert.KernelIdeal.S1 .f32) :
    extf .f32 (extractStridedSlice Cert.KernelIdeal.S600000x128 ![0, 0] (msgArrK x0 x1 x2 x3 x4 x5 x6) Cert.KernelIdeal.Gen.slices_S602112x128_S600000x128_0_0)
        Cert.KernelIdeal.Gen.bitsLt_bf16_f32
      = Cert.ReferenceIdeal.Read.val_main_v52 (F := Ideal) x0 x1 x2 x3 x4 x5 x6 := by
  funext i
  obtain ⟨e, j, rfl⟩ : ∃ (e : Fin 600000) (j : Fin 128), i = ix2 e j := ⟨i 0, i 1, eq_ix2 i⟩
  rw [Cert.ReferenceIdeal.Read.val_main_v52_apply, Cert.ReferenceIdeal.Read.val_main_v51_apply, Cert.ReferenceIdeal.Read.val_main_v43_apply, v50_eq]
  show FloatOps.extf .f32 _ (extractStridedSlice Cert.KernelIdeal.S600000x128 ![0, 0] (msgArrK x0 x1 x2 x3 x4 x5 x6) _ (ix2 e j)) = _
  rw [Ideal.extf_def, Ideal.mulf_def]
  refine (extractStridedSlice_apply _ (msgArrK x0 x1 x2 x3 x4 x5 x6) _ (ix2 e j) (ix2 (up e) j) (fun a => match a with
      | ⟨0, _⟩ => by show e.val = 0 + e.val; omega
      | ⟨1, _⟩ => by show j.val = 0 + j.val; omega)).trans ?_
  unfold msgArrK Cert.KernelIdeal.Arr1.msgArr
  rw [w_eq]
  refine Cert.KernelIdeal.Arr1.mul_eq_of _ _ _ _ ?_ (rows_eq x0 x1 e j)
  refine (colW_apply _ e).trans ?_
  exact congrArg (Cert.ReferenceIdeal.Read.val_main_v42 (F := Ideal) x0 x1 x2 x3 x4 x5 x6) (funext fun a => Fin.ext (match a with | ⟨0, _⟩ => rfl))

/-! ## The results -/

/-- THE RESULTS of the two programs are one function of the arguments. -/
theorem kval_eq (x0 : FVec Ideal Cert.KernelIdeal.S50000x128 .f32) (x1 x2 : IVec Cert.KernelIdeal.S600000 32) (x3 : FVec Ideal Cert.KernelIdeal.S128x128 .f32)
    (x4 : FVec Ideal Cert.KernelIdeal.S128 .f32) (x5 : FVec Ideal Cert.KernelIdeal.S128x1 .f32) (x6 : FVec Ideal Cert.KernelIdeal.S1 .f32) :
    kval x0 x1 x2 x3 x4 x5 x6 = Cert.ReferenceIdeal.Read.val_main_v55 (F := Ideal) x0 x1 x2 x3 x4 x5 x6 := by
  unfold kval outOf
  rw [msg_eq]
  rfl

end Cert.Bridge

end
-- ==== Proof.lean ====
/-
  The certificate of an attention-weighted message-passing layer over a graph of 50000 nodes and 600000 edges.

  Both programs compute, for every edge, the attention weight
  `att e = logistic (max (∑ k, max (∑ j, (h[src e] − h[dst e]) j · W₁ j k + b₁ k) 0 · W₂ k + b₂) 0)`,
  divide it by the sum of the weights of the edges with the same source node, multiply the source node's features by
  the quotient, and sum these messages per destination node.  The reference does this with two matrix products over
  the 600000 edges.  The kernel pads the edge list to 602112 edges, computes the weights in 147 blocks of 4096 edges
  (one matrix product, then a product with a row and a lane sum), cuts the padding off, forms the quotients with the
  same gathers and per-node sums as the reference, pads again, multiplies in 147 blocks, and cuts the padding off.

  Over the extended reals the two are one function: a change of float format is the identity, the lane sum and the
  second matrix product are the same sum term for term, the logistic function is by definition `1 / (1 + exp (−x))`,
  and below row 600000 every padded array is the unpadded one.  No law that needs finiteness is used, so the
  precondition is never opened.

  The three frames are the generated ones (the reference's is its generated run with the result dropped); the ideal
  pass rewrote nothing, so `preserves` is `True`.
-/
import proofs.«411210_j22625887715773_4_alg».proof.Defs
import proofs.«411210_j22625887715773_4_alg».proof.Proof.Gen.Kernel
import proofs.«411210_j22625887715773_4_alg».proof.Proof.Gen.Kernel.Frame
import proofs.«411210_j22625887715773_4_alg».proof.Proof.Gen.KernelIdeal
import proofs.«411210_j22625887715773_4_alg».proof.Proof.Gen.KernelIdeal.Frame
import proofs.«411210_j22625887715773_4_alg».proof.Proof.Gen.ReferenceIdeal
import proofs.«411210_j22625887715773_4_alg».proof.Proof.Gen.ReferenceIdeal.Run
import proofs.«411210_j22625887715773_4_alg».proof.Proof.Gen.ReferenceIdeal.Read
import proofs.«411210_j22625887715773_4_alg».proof.Proof.Gen.Pre_finite_inputs
import proofs.«411210_j22625887715773_4_alg».proof.Proof.KernelRun
import proofs.«411210_j22625887715773_4_alg».proof.Proof.KernelHost
import proofs.«411210_j22625887715773_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the result buffer at `kval` of the
    arguments: the kernel by its run read back through the host stretches and the two launches' arrays, the reference
    by its run and the index-by-index equality of the two terms. -/
theorem algebraic : Cert.algebraic_KernelIdeal_ReferenceIdeal := by
  intro m ρ m' ρ' _ hagree
  refine ⟨fun c => Cert.KernelIdeal.KHost.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KHost.v41_11 m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1,
      (hagree c).2.2.2.2.1, (hagree c).2.2.2.2.2.1, (hagree c).2.2.2.2.2.2]
    exact (Cert.Bridge.kval_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
